-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192x8 : Shape := ⟨3, ![16, 8192, 8]⟩
abbrev S8x64 : Shape := ⟨2, ![8, 64]⟩
abbrev S_ : Shape := ⟨0, ![]⟩

class Facts : Prop where
  bcast_S_S16x8192x8 : S_.BroadcastsInDim S16x8192x8 (![] : Fin 0 → Fin S16x8192x8.rank)
  reducesTo_S16x8192x8_S_d0_1_2 : S16x8192x8.ReducesTo [0, 1, 2] S_
  h_S_ : 0 < S_.numel
  bcast_S_S8x64 : S_.BroadcastsInDim S8x64 (![] : Fin 0 → Fin S8x64.rank)
  reducesTo_S8x64_S_d0_1 : S8x64.ReducesTo [0, 1] S_

variable [Facts]

def fn {F : FTy → Type} [FloatOps F] (main_arg0 : FVec F S16x8192x8 .f32) (main_arg1 : FVec F S8x64 .f32) (main_arg2 : FVec F S8x64 .f32) : IVec S_ 1 :=
  let main_v0 : FVec F S16x8192x8 .f32 := Host.absf main_arg0
  let main_cst : FVec F S_ .f32 := constant S_ .f32 0x7F800000#32
  let main_v1 : FVec F S16x8192x8 .f32 := broadcastInDim S16x8192x8 ![] bcast_S_S16x8192x8 main_cst
  let main_v2 : IVec S16x8192x8 1 := cmpf .olt main_v0 main_v1
  let main_c : IVec S_ 1 := constantI S_ 1 1#1
  let main_v3 : IVec S_ 1 := (fun x v => Host.reduce IntOp.andi x v reducesTo_S16x8192x8_S_d0_1_2 h_S_) main_v2 main_c
  let main_v4 : FVec F S8x64 .f32 := Host.absf main_arg1
  let main_cst_0 : FVec F S_ .f32 := constant S_ .f32 0x7F800000#32
  let main_v5 : FVec F S8x64 .f32 := broadcastInDim S8x64 ![] bcast_S_S8x64 main_cst_0
  let main_v6 : IVec S8x64 1 := cmpf .olt main_v4 main_v5
  let main_c_1 : IVec S_ 1 := constantI S_ 1 1#1
  let main_v7 : IVec S_ 1 := (fun x v => Host.reduce IntOp.andi x v reducesTo_S8x64_S_d0_1 h_S_) main_v6 main_c_1
  let main_v8 : IVec S_ 1 := andi main_v3 main_v7
  let main_v9 : FVec F S8x64 .f32 := Host.absf main_arg2
  let main_cst_2 : FVec F S_ .f32 := constant S_ .f32 0x7F800000#32
  let main_v10 : FVec F S8x64 .f32 := broadcastInDim S8x64 ![] bcast_S_S8x64 main_cst_2
  let main_v11 : IVec S8x64 1 := cmpf .olt main_v9 main_v10
  let main_c_3 : IVec S_ 1 := constantI S_ 1 1#1
  let main_v12 : IVec S_ 1 := (fun x v => Host.reduce IntOp.andi x v reducesTo_S8x64_S_d0_1 h_S_) main_v11 main_c_3
  let main_v13 : IVec S_ 1 := andi main_v8 main_v12
  main_v13
-- ==== Kernel.lean ====
abbrev S16x8192x8 : Shape := ⟨3, ![16, 8192, 8]⟩
abbrev S8x64 : Shape := ⟨2, ![8, 64]⟩
abbrev S131072x8 : Shape := ⟨2, ![131072, 8]⟩
abbrev S131072x512 : Shape := ⟨2, ![131072, 512]⟩
abbrev S2048x8 : Shape := ⟨2, ![2048, 8]⟩
abbrev S2048x512 : Shape := ⟨2, ![2048, 512]⟩
abbrev S2048x8x1 : Shape := ⟨3, ![2048, 8, 1]⟩
abbrev S1x8x64 : Shape := ⟨3, ![1, 8, 64]⟩
abbrev S2048x8x64 : Shape := ⟨3, ![2048, 8, 64]⟩
abbrev S2048x8x63 : Shape := ⟨3, ![2048, 8, 63]⟩
abbrev S16x8192x512 : Shape := ⟨3, ![16, 8192, 512]⟩

abbrev nBuf : Space → Nat
  | .hbm => 6
  | .vmem => 6
  | .smem => 0
  | _ => 0

abbrev bufTy : (tb : Table) → Fin (tcTables nBuf tb) → BufTy
  | .hbm, ⟨0, _⟩ => ⟨S16x8192x8, .f32⟩
  | .hbm, ⟨1, _⟩ => ⟨S8x64, .f32⟩
  | .hbm, ⟨2, _⟩ => ⟨S8x64, .f32⟩
  | .hbm, ⟨3, _⟩ => ⟨S131072x8, .f32⟩
  | .hbm, ⟨4, _⟩ => ⟨S131072x512, .f32⟩
  | .hbm, ⟨5, _⟩ => ⟨S16x8192x512, .f32⟩
  | .local _ .vmem, ⟨0, _⟩ => ⟨S2048x8, .f32⟩
  | .local _ .vmem, ⟨1, _⟩ => ⟨S2048x8, .f32⟩
  | .local _ .vmem, ⟨2, _⟩ => ⟨S8x64, .f32⟩
  | .local _ .vmem, ⟨3, _⟩ => ⟨S8x64, .f32⟩
  | .local _ .vmem, ⟨4, _⟩ => ⟨S2048x512, .f32⟩
  | .local _ .vmem, ⟨5, _⟩ => ⟨S2048x512, .f32⟩
  | _, _ => ⟨S16x8192x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16x8192x8_S131072x8 : S16x8192x8.ShapeCasts S131072x8
  inb_S2048x8_S2048x8_0_0 : ∀ a, (![0, 0] : Fin 2 → Nat) a + S2048x8.size a ≤ S2048x8.size a
  h_S2048x8 : 0 < S2048x8.numel
  shapeCasts_S2048x8_S2048x8 : S2048x8.ShapeCasts S2048x8
  inb_S8x64_S8x64_0_0 : ∀ a, (![0, 0] : Fin 2 → Nat) a + S8x64.size a ≤ S8x64.size a
  h_S8x64 : 0 < S8x64.numel
  shapeCasts_S2048x8_S2048x8x1 : S2048x8.ShapeCasts S2048x8x1
  shapeCasts_S8x64_S1x8x64 : S8x64.ShapeCasts S1x8x64
  broadcasts_S2048x8x1_S2048x8x64 : S2048x8x1.Broadcasts S2048x8x64
  broadcasts_S1x8x64_S2048x8x64 : S1x8x64.Broadcasts S2048x8x64
  slices_S2048x8x64_o0_0_0_S2048x8x1 : S2048x8x64.Slices ![0, 0, 0] S2048x8x1
  slices_S2048x8x64_o0_0_1_S2048x8x63 : S2048x8x64.Slices ![0, 0, 1] S2048x8x63
  concatenates_S2048x8x1_S2048x8x63_S2048x8x64_d2 : Shape.Concatenates [S2048x8x1, S2048x8x63] S2048x8x64 2
  shapeCasts_S2048x8x64_S2048x512 : S2048x8x64.ShapeCasts S2048x512
  inb_S2048x512_S2048x512_0_0 : ∀ a, (![0, 0] : Fin 2 → Nat) a + S2048x512.size a ≤ S2048x512.size a
  h_S2048x512 : 0 < S2048x512.numel
  shapeCasts_S131072x512_S16x8192x512 : S131072x512.ShapeCasts S16x8192x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x8.size a ≤ S131072x8.size a
  hwx0_0 : ∀ i : grid0.Coords, EltTy.bits .f32 = 32 ∨ (Rect.block (s := S131072x8) S2048x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x64.size a ≤ S8x64.size a
  hwx0_1 : ∀ i : grid0.Coords, EltTy.bits .f32 = 32 ∨ (Rect.block (s := S8x64) S8x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x64.size a ≤ S8x64.size a
  hwx0_2 : ∀ i : grid0.Coords, EltTy.bits .f32 = 32 ∨ (Rect.block (s := S8x64) S8x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S131072x512.size a
  hwx0_3 : ∀ i : grid0.Coords, EltTy.bits .f32 = 32 ∨ (Rect.block (s := S131072x512) S2048x512.size (cc0_transform_3 i) (hinb0_3 i)).WholeWords (EltTy.packing .f32)

variable [Facts₀]

abbrev win0_0 : Pipeline.Window sig grid0 :=
  Pipeline.Window.ofSpec (Memref.whole main_v0) S2048x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x8192x8 : Shape := ⟨3, ![16, 8192, 8]⟩
abbrev S8x64 : Shape := ⟨2, ![8, 64]⟩
abbrev S_ : Shape := ⟨0, ![]⟩
abbrev S16x8192x8x1 : Shape := ⟨4, ![16, 8192, 8, 1]⟩
abbrev S1x1x8x64 : Shape := ⟨4, ![1, 1, 8, 64]⟩
abbrev S16x8192x8x64 : Shape := ⟨4, ![16, 8192, 8, 64]⟩
abbrev S16x8192x8x63 : Shape := ⟨4, ![16, 8192, 8, 63]⟩
abbrev S16x8192x512 : Shape := ⟨3, ![16, 8192, 512]⟩

abbrev nBuf : Space → Nat
  | .hbm => 32
  | .vmem => 0
  | .smem => 0
  | _ => 0

abbrev bufTy : (tb : Table) → Fin (tcTables nBuf tb) → BufTy
  | .hbm, ⟨0, _⟩ => ⟨S16x8192x8, .f32⟩
  | .hbm, ⟨1, _⟩ => ⟨S8x64, .f32⟩
  | .hbm, ⟨2, _⟩ => ⟨S8x64, .f32⟩
  | .hbm, ⟨3, _⟩ => ⟨S16x8192x8, .i1⟩
  | .hbm, ⟨4, _⟩ => ⟨S_, .f32⟩
  | .hbm, ⟨5, _⟩ => ⟨S16x8192x8, .f32⟩
  | .hbm, ⟨6, _⟩ => ⟨S16x8192x8, .f32⟩
  | .hbm, ⟨7, _⟩ => ⟨S_, .f32⟩
  | .hbm, ⟨8, _⟩ => ⟨S16x8192x8, .f32⟩
  | .hbm, ⟨9, _⟩ => ⟨S16x8192x8, .i1⟩
  | .hbm, ⟨10, _⟩ => ⟨S_, .f32⟩
  | .hbm, ⟨11, _⟩ => ⟨S16x8192x8, .f32⟩
  | .hbm, ⟨12, _⟩ => ⟨S16x8192x8, .f32⟩
  | .hbm, ⟨13, _⟩ => ⟨S_, .f32⟩
  | .hbm, ⟨14, _⟩ => ⟨S16x8192x8, .f32⟩
  | .hbm, ⟨15, _⟩ => ⟨S16x8192x8, .i1⟩
  | .hbm, ⟨16, _⟩ => ⟨S_, .f32⟩
  | .hbm, ⟨17, _⟩ => ⟨S16x8192x8, .f32⟩
  | .hbm, ⟨18, _⟩ => ⟨S16x8192x8, .f32⟩
  | .hbm, ⟨19, _⟩ => ⟨S16x8192x8x1, .f32⟩
  | .hbm, ⟨20, _⟩ => ⟨S1x1x8x64, .f32⟩
  | .hbm, ⟨21, _⟩ => ⟨S16x8192x8x64, .f32⟩
  | .hbm, ⟨22, _⟩ => ⟨S16x8192x8x64, .f32⟩
  | .hbm, ⟨23, _⟩ => ⟨S16x8192x8x64, .f32⟩
  | .hbm, ⟨24, _⟩ => ⟨S1x1x8x64, .f32⟩
  | .hbm, ⟨25, _⟩ => ⟨S16x8192x8x64, .f32⟩
  | .hbm, ⟨26, _⟩ => ⟨S16x8192x8x64, .f32⟩
  | .hbm, ⟨27, _⟩ => ⟨S16x8192x8x1, .f32⟩
  | .hbm, ⟨28, _⟩ => ⟨S16x8192x8x63, .f32⟩
  | .hbm, ⟨29, _⟩ => ⟨S16x8192x8x63, .f32⟩
  | .hbm, ⟨30, _⟩ => ⟨S16x8192x8x64, .f32⟩
  | .hbm, ⟨31, _⟩ => ⟨S16x8192x512, .f32⟩
  | _, _ => ⟨S16x8192x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_call0_v0 : Ref sig .tc := ⟨.hbm, 5, rfl⟩
abbrev main_call0_v1 : Ref sig .tc := ⟨.hbm, 6, rfl⟩
abbrev main_call0_cst_0 : Ref sig .tc := ⟨.hbm, 7, rfl⟩
abbrev main_call0_v2 : Ref sig .tc := ⟨.hbm, 8, rfl⟩
abbrev main_call0_v3 : Ref sig .tc := ⟨.hbm, 9, rfl⟩
abbrev main_call0_cst_1 : Ref sig .tc := ⟨.hbm, 10, rfl⟩
abbrev main_call0_call1_v0 : Ref sig .tc := ⟨.hbm, 11, rfl⟩
abbrev main_call0_v4 : Ref sig .tc := ⟨.hbm, 12, rfl⟩
abbrev main_call0_cst_2 : Ref sig .tc := ⟨.hbm, 13, rfl⟩
abbrev main_call0_v5 : Ref sig .tc := ⟨.hbm, 14, rfl⟩
abbrev main_call0_v6 : Ref sig .tc := ⟨.hbm, 15, rfl⟩
abbrev main_call0_cst_3 : Ref sig .tc := ⟨.hbm, 16, rfl⟩
abbrev main_call0_call2_v0 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩

abbrev nD : Nat := 1
abbrev τ : Topo := Topo.v7x

variable {F : FTy → Type} [FloatOps F]

class Facts₀ : Prop where
  bcast_S_S16x8192x8 : S_.BroadcastsInDim S16x8192x8 (![] : Fin 0 → Fin S16x8192x8.rank)
  bcast_S16x8192x8_S16x8192x8x1_0_1_2 : S16x8192x8.BroadcastsInDim S16x8192x8x1 (![0, 1, 2] : Fin 3 → Fin S16x8192x8x1.rank)
  bcast_S8x64_S1x1x8x64_2_3 : S8x64.BroadcastsInDim S1x1x8x64 (![2, 3] : Fin 2 → Fin S1x1x8x64.rank)
  bcast_S16x8192x8x1_S16x8192x8x64_0_1_2_3 : S16x8192x8x1.BroadcastsInDim S16x8192x8x64 (![0, 1, 2, 3] : Fin 4 → Fin S16x8192x8x64.rank)
  bcast_S1x1x8x64_S16x8192x8x64_0_1_2_3 : S1x1x8x64.BroadcastsInDim S16x8192x8x64 (![0, 1, 2, 3] : Fin 4 → Fin S16x8192x8x64.rank)
  slices_S16x8192x8x64_S16x8192x8x1_0_0_0_0 : S16x8192x8x64.Slices ![0, 0, 0, 0] S16x8192x8x1
  slices_S16x8192x8x64_S16x8192x8x63_0_0_0_1 : S16x8192x8x64.Slices ![0, 0, 0, 1] S16x8192x8x63
  concatenates_S16x8192x8x1_S16x8192x8x63_S16x8192x8x64_d3 : Shape.Concatenates [S16x8192x8x1, S16x8192x8x63] S16x8192x8x64 3
  shapeCasts_S16x8192x8x64_S16x8192x512 : S16x8192x8x64.ShapeCasts S16x8192x512

variable [Facts₀]

class Facts : Prop extends Facts₀ where

variable [Facts]
-- ==== Proof.Spec.lean ====
/-
  The function both programs compute, index by index, over the extended reals.

  An input entry is first cleaned: a NaN would become zero (there is none among the extended reals, so the
  test never fires), +inf becomes the largest finite single-precision value and -inf its negative. Then, for
  input row (p, l), feature d of 8 and channel e of 64,
      a = clamp (x[p, l, d]) * W[d, e] + b[d, e],
  and the result at [p, l, 64 d + e] is `a` itself in channel 0 and `sin a` in channels 1 to 63.
  `outAt` states it over the input as given, [16, 8192, 8]; `rowsAt` over the same input with its two
  leading axes flattened to 131072 rows, which is how the kernel's launch sees it.
-/
import Idealize.ShloMosaic.PureOps.Ideal
import Idealize.ShloMosaic.Lib.ValueIdx

noncomputable section

namespace Cert.Spec

open Idealize.ShloMosaic Idealize.ShloMosaic.ValueIdx

/-- NaN to zero, then +inf to the largest finite value, then -inf to its negative. -/
def clamp (x : EReal) : EReal :=
  let z : EReal := Scalar.select (Ideal.cmp .une x x) (Ideal.ofBits .f32 0x00000000#32) x
  let p : EReal := Scalar.select (Ideal.cmp .oeq z (Ideal.ofBits .f32 0x7F800000#32)) (Ideal.ofBits .f32 0x7F7FFFFF#32) z
  Scalar.select (Ideal.cmp .oeq p (Ideal.ofBits .f32 0xFF800000#32)) (Ideal.ofBits .f32 0xFF7FFFFF#32) p

/-- The affine value of one input entry against one weight and one bias. -/
def affineAt (x w b : EReal) : EReal := clamp x * w + b

/-- Channel `e` of the result: the affine value in channel 0, its sine elsewhere. -/
def entry (x w b : EReal) (e : ℕ) : EReal :=
  if e = 0 then affineAt x w b else Ideal.sin (affineAt x w b)

/-- "Ordered and different" and "unordered or different" are one test where nothing is unordered. -/
theorem cmp_one_eq_une (x y : EReal) : Ideal.cmp .one x y = Ideal.cmp .une x y := rfl

abbrev SIn : Shape := ⟨3, ![16, 8192, 8]⟩
abbrev SPar : Shape := ⟨2, ![8, 64]⟩
abbrev SOut : Shape := ⟨3, ![16, 8192, 512]⟩
abbrev SRowsIn : Shape := ⟨2, ![131072, 8]⟩
abbrev SRowsOut : Shape := ⟨2, ![131072, 512]⟩

/-- Feature `j / 64` of a flattened channel index `j < 512`. -/
abbrev feat (j : Fin 512) : Fin 8 := ⟨j.val / 64, by have := j.isLt; omega⟩
/-- Channel `j % 64` of a flattened channel index. -/
abbrev chan (j : Fin 512) : Fin 64 := ⟨j.val % 64, Nat.mod_lt _ (by decide)⟩

/-- The result over the input as given. -/
def outAt (X : SIn.Idx → EReal) (W B : SPar.Idx → EReal) : SOut.Idx → EReal := fun i =>
  let p : Fin 16 := i 0
  let l : Fin 8192 := i 1
  let j : Fin 512 := i 2
  entry (X (ix3 p l (feat j))) (W (ix2 (feat j) (chan j))) (B (ix2 (feat j) (chan j))) (chan j).val

/-- The result over the input with its leading axes flattened to rows. -/
def rowsAt (Y : SRowsIn.Idx → EReal) (W B : SPar.Idx → EReal) : SRowsOut.Idx → EReal := fun i =>
  let r : Fin 131072 := i 0
  let j : Fin 512 := i 1
  entry (Y (ix2 r (feat j))) (W (ix2 (feat j) (chan j))) (B (ix2 (feat j) (chan j))) (chan j).val

theorem outAt_ix (X : SIn.Idx → EReal) (W B : SPar.Idx → EReal) (p : Fin 16) (l : Fin 8192) (j : Fin 512) :
    outAt X W B (ix3 p l j) = entry (X (ix3 p l (feat j))) (W (ix2 (feat j) (chan j))) (B (ix2 (feat j) (chan j))) (chan j).val := rfl

theorem rowsAt_ix (Y : SRowsIn.Idx → EReal) (W B : SPar.Idx → EReal) (r : Fin 131072) (j : Fin 512) :
    rowsAt Y W B (ix2 r j) = entry (Y (ix2 r (feat j))) (W (ix2 (feat j) (chan j))) (B (ix2 (feat j) (chan j))) (chan j).val := rfl

end Cert.Spec

end
-- ==== Proof.KernelPayload.lean ====
/-
  The kernel body's stored value, read at one entry of the output block.

  The body cleans its [2048, 8] input block (NaN to zero, the infinities to the largest finite values), views it
  as [2048, 8, 1] and the two [8, 64] parameter blocks as [1, 8, 64], broadcasts all three to [2048, 8, 64],
  multiplies and adds, keeps channel 0, takes the sine of channels 1 to 63, joins them on the channel axis
  and flattens [2048, 8, 64] to [2048, 512]. Row-major, entry (r, j) of the flat block is entry
  (r, j / 64, j % 64) of the joined one; there the join reads its first piece when j % 64 = 0 and its second,
  one channel down, otherwise; either way the affine value at (r, j / 64, j % 64), which the broadcasts make
  `clamp x[r, j / 64] * W[j / 64, j % 64] + b[j / 64, j % 64]`.
-/
import proofs.«117917_j2765958939448_1_alg».proof.Proof.Gen.KernelIdeal.Skeleton
import proofs.«117917_j2765958939448_1_alg».proof.Proof.Spec
import Idealize.ShloMosaic.Lib.Pipeline.Value
import Idealize.ShloMosaic.Lib.ValueIdx

noncomputable section

namespace Cert.KernelIdeal.Payload

open Cert.KernelIdeal Cert.KernelIdeal.Gen Idealize.ShloMosaic Idealize.ShloMosaic.ValueIdx Cert.Spec

variable (v0 : Vec Ideal S2048x8 .f32) (w b : Vec Ideal S8x64 .f32)

/-- The input block after the three compare-and-select stages. -/
def cleaned : FVec Ideal S2048x8 .f32 :=
  let v1 : FVec Ideal S2048x8 .f32 := shapeCast S2048x8 v0 shapeCasts_S2048x8_S2048x8
  let v4 : FVec Ideal S2048x8 .f32 := select (cmpf .one v1 v1) (broadcast S2048x8 (Scalar.ofBits .f32 0x00000000#32)) v1
  let v8 : FVec Ideal S2048x8 .f32 := select (cmpf .oeq v4 (broadcast S2048x8 (Scalar.ofBits .f32 0x7F800000#32))) (broadcast S2048x8 (Scalar.ofBits .f32 0x7F7FFFFF#32)) v4
  select (cmpf .oeq v8 (broadcast S2048x8 (Scalar.ofBits .f32 0xFF800000#32))) (broadcast S2048x8 (Scalar.ofBits .f32 0xFF7FFFFF#32)) v8

/-- The affine value over [2048, 8, 64]. -/
def affine3 : FVec Ideal S2048x8x64 .f32 :=
  addf
    (mulf (broadcastTo S2048x8x64 (shapeCast S2048x8x1 (cleaned v0) shapeCasts_S2048x8_S2048x8x1) broadcasts_S2048x8x1_S2048x8x64)
      (broadcastTo S2048x8x64 (shapeCast S1x8x64 w shapeCasts_S8x64_S1x8x64) broadcasts_S1x8x64_S2048x8x64))
    (broadcastTo S2048x8x64 (shapeCast S1x8x64 b shapeCasts_S8x64_S1x8x64) broadcasts_S1x8x64_S2048x8x64)

/-- Channel 0 kept, the sine of the rest, joined on the channel axis. -/
def joined : FVec Ideal S2048x8x64 .f32 :=
  concatenate S2048x8x64 2
    [⟨S2048x8x1, extractStridedSlice S2048x8x1 ![0, 0, 0] (affine3 v0 w b) slices_S2048x8x64_o0_0_0_S2048x8x1⟩,
     ⟨S2048x8x63, sin (extractStridedSlice S2048x8x63 ![0, 0, 1] (affine3 v0 w b) slices_S2048x8x64_o0_0_1_S2048x8x63)⟩]
    concatenates_S2048x8x1_S2048x8x63_S2048x8x64_d2

/-- The stored value is the joined one, flattened. -/
theorem pay_eq : k0_pay1 (F := Ideal) v0 w b = shapeCast S2048x512 (joined v0 w b) shapeCasts_S2048x8x64_S2048x512 := rfl

/-- An entry of the cleaned block is the clamp of the same entry of the block. -/
theorem cleaned_apply (r : Fin 2048) (d : Fin 8) : cleaned v0 (ix2 r d) = clamp (v0 (ix2 r d)) := by
  unfold cleaned
  simp only [shapeCast_self]
  rfl

/-- An entry of the affine value. -/
theorem affine3_apply (r : Fin 2048) (d : Fin 8) (e : Fin 64) :
    affine3 v0 w b (ix3 r d e) = affineAt (v0 (ix2 r d)) (w (ix2 d e)) (b (ix2 d e)) := by
  unfold affine3 affineAt
  rw [addf_apply, mulf_apply]
  rw [broadcastTo_apply _ broadcasts_S2048x8x1_S2048x8x64 (ix3 r d e) (ix3 r d (0 : Fin 1))
        (fun a => match a with | ⟨0, _⟩ => rfl | ⟨1, _⟩ => rfl | ⟨2, _⟩ => rfl),
      shapeCast_apply _ shapeCasts_S2048x8_S2048x8x1 (ix3 r d (0 : Fin 1)) (ix2 r d)
        (by rw [Shape.rowMajor_val_two, Shape.rowMajor_val_three]; show r.val * 8 + d.val = (r.val * 8 + d.val) * 1 + 0; omega),
      cleaned_apply]
  rw [broadcastTo_apply (shapeCast S1x8x64 w shapeCasts_S8x64_S1x8x64) broadcasts_S1x8x64_S2048x8x64 (ix3 r d e) (ix3 (0 : Fin 1) d e)
        (fun a => match a with | ⟨0, _⟩ => rfl | ⟨1, _⟩ => rfl | ⟨2, _⟩ => rfl),
      shapeCast_apply w shapeCasts_S8x64_S1x8x64 (ix3 (0 : Fin 1) d e) (ix2 d e)
        (by rw [Shape.rowMajor_val_two, Shape.rowMajor_val_three]; show d.val * 64 + e.val = (0 * 8 + d.val) * 64 + e.val; omega)]
  rw [broadcastTo_apply (shapeCast S1x8x64 b shapeCasts_S8x64_S1x8x64) broadcasts_S1x8x64_S2048x8x64 (ix3 r d e) (ix3 (0 : Fin 1) d e)
        (fun a => match a with | ⟨0, _⟩ => rfl | ⟨1, _⟩ => rfl | ⟨2, _⟩ => rfl),
      shapeCast_apply b shapeCasts_S8x64_S1x8x64 (ix3 (0 : Fin 1) d e) (ix2 d e)
        (by rw [Shape.rowMajor_val_two, Shape.rowMajor_val_three]; show d.val * 64 + e.val = (0 * 8 + d.val) * 64 + e.val; omega)]

/-- An entry of the joined value: the affine value in channel 0, its sine elsewhere. -/
theorem joined_apply (r : Fin 2048) (d : Fin 8) (e : Fin 64) :
    joined v0 w b (ix3 r d e) = entry (v0 (ix2 r d)) (w (ix2 d e)) (b (ix2 d e)) e.val := by
  unfold joined entry
  by_cases he : e.val = 0
  · rw [if_pos he]
    refine (concatenate_pair_apply_left (t := S2048x8x64) (s₁ := S2048x8x1) (s₂ := S2048x8x63) (2 : Fin 3) _ _ concatenates_S2048x8x1_S2048x8x63_S2048x8x64_d2 (ix3 r d e) rfl
      (ix3 r d (0 : Fin 1)) (fun a => match a with | ⟨0, _⟩ => rfl | ⟨1, _⟩ => rfl | ⟨2, _⟩ => he.symm)).trans ?_
    refine (extractStridedSlice_apply _ _ slices_S2048x8x64_o0_0_0_S2048x8x1 (ix3 r d (0 : Fin 1)) (ix3 r d e)
      (fun a => match a with
        | ⟨0, _⟩ => (Nat.zero_add _).symm
        | ⟨1, _⟩ => (Nat.zero_add _).symm
        | ⟨2, _⟩ => by show e.val = 0 + 0; omega)).trans ?_
    exact affine3_apply v0 w b r d e
  · rw [if_neg he]
    have he1 : e.val - 1 < 63 := by have := e.isLt; omega
    refine (concatenate_pair_apply_right (t := S2048x8x64) (s₁ := S2048x8x1) (s₂ := S2048x8x63) (2 : Fin 3) _ _ concatenates_S2048x8x1_S2048x8x63_S2048x8x64_d2 (ix3 r d e) rfl rfl
      (ix3 r d (⟨e.val - 1, he1⟩ : Fin 63))
      (fun a => match a with
        | ⟨0, _⟩ => fun _ => rfl
        | ⟨1, _⟩ => fun _ => rfl
        | ⟨2, _⟩ => fun h => absurd rfl h)
      (by show (e.val - 1) + 1 = e.val; omega)).trans ?_
    show FloatOps.sin (extractStridedSlice S2048x8x63 ![0, 0, 1] (affine3 v0 w b) slices_S2048x8x64_o0_0_1_S2048x8x63 (ix3 r d (⟨e.val - 1, he1⟩ : Fin 63))) = _
    rw [extractStridedSlice_apply _ _ slices_S2048x8x64_o0_0_1_S2048x8x63 (ix3 r d (⟨e.val - 1, he1⟩ : Fin 63)) (ix3 r d e)
      (fun a => match a with
        | ⟨0, _⟩ => (Nat.zero_add _).symm
        | ⟨1, _⟩ => (Nat.zero_add _).symm
        | ⟨2, _⟩ => by show e.val = 1 + (e.val - 1); omega),
      affine3_apply]
    rfl

/-- Entry (r, j) of the stored block. -/
theorem pay_apply (r : Fin 2048) (j : Fin 512) :
    k0_pay1 (F := Ideal) v0 w b (ix2 r j)
      = entry (v0 (ix2 r (feat j))) (w (ix2 (feat j) (chan j))) (b (ix2 (feat j) (chan j))) (chan j).val := by
  rw [pay_eq]
  refine (shapeCast_apply _ shapeCasts_S2048x8x64_S2048x512 (ix2 r j) (ix3 r (feat j) (chan j)) ?_).trans
    (joined_apply v0 w b r (feat j) (chan j))
  rw [Shape.rowMajor_val_two, Shape.rowMajor_val_three]
  show (r.val * 8 + j.val / 64) * 64 + j.val % 64 = r.val * 512 + j.val
  omega

end Cert.KernelIdeal.Payload

end
-- ==== Proof.KernelValue.lean ====
/-
  What the kernel program leaves in its result buffer, as one function of its three argument arrays.

  The launch sees the input with its two leading axes flattened to 131072 rows (a host reshape before the region)
  and walks it in 64 blocks of 2048 rows; W and b are one block each, the same at every point. At point t the body
  stores, at entry (r, j) of its [2048, 512] output block, the specification's entry for row 2048 t + r of the
  flattened input (the payload read at an entry, with each input block read as rows of its array). So what point t
  writes back is block t of ONE whole-array function of the flattened input, the 64 blocks tile the [131072, 512]
  array (row i lies in block i / 2048), and the array ends at that function. A host reshape after the region unflattens
  the rows to [16, 8192]: row-major, entry (p, l, j) of the result is entry (8192 p + l, j) of the array, and row
  8192 p + l of the flattened input is row (p, l) of the input as given.
-/
import proofs.«117917_j2765958939448_1_alg».proof.Proof.Gen.KernelIdeal.Frame
import proofs.«117917_j2765958939448_1_alg».proof.Proof.KernelPayload
import proofs.«117917_j2765958939448_1_alg».proof.Proof.Spec
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.RegionValue

open Cert.KernelIdeal Cert.KernelIdeal.Gen Idealize.ShloMosaic.ValueIdx Idealize.ShloMosaic.StableHlo Cert.Spec

variable (m : (ℓ : Loc nD τ sig) → Buf (Elt Ideal) ℓ) (ρ : Dev nD → PrngReg)

theorem hz : (![0, 0] : Fin 2 → Nat) = fun _ => 0 := funext fun a => by fin_cases a <;> rfl

/-- The four index maps over the grid: the input and the output move one block of rows per point, the two
    parameter windows stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The body's stored value at an entry of block `q`, when the input block holds rows `2048 q …` of `Y` and the
    parameter blocks are `W` and `B`: the whole-array function at the entry's place in the array. -/
theorem block_entry (x0 : Vec Ideal S2048x8 .f32) (w b : Vec Ideal S8x64 .f32)
    (Y : SRowsIn.Idx → EReal) (W B : SPar.Idx → EReal) (q : ℕ)
    (hx : ∀ (r : Fin 2048) (d : Fin 8) (k : SRowsIn.Idx), (k 0).val = q * 2048 + r.val → (k 1).val = d.val → x0 (ix2 r d) = Y k)
    (hw : ∀ i : SPar.Idx, w i = W i) (hb : ∀ i : SPar.Idx, b i = B i)
    (y : S2048x512.Idx) (i : SRowsOut.Idx) (hi0 : (i 0).val = q * 2048 + (y 0).val) (hi1 : (i 1).val = (y 1).val) :
    k0_pay1 (F := Ideal) x0 w b y = rowsAt Y W B i := by
  obtain ⟨r, j, rfl⟩ : ∃ (r : Fin 2048) (j : Fin 512), y = ix2 r j := ⟨y 0, y 1, eq_ix2 y⟩
  obtain ⟨r', j', rfl⟩ : ∃ (r' : Fin 131072) (j' : Fin 512), i = ix2 r' j' := ⟨i 0, i 1, eq_ix2 i⟩
  obtain rfl : j' = j := Fin.ext hi1
  rw [Payload.pay_apply, rowsAt_ix, hw, hb, hx r (feat j') (ix2 r' (feat j')) hi0 rfl]

/-- The input window's block at point t is rows 2048 t … 2048 t + 2047 of the flattened input. -/
theorem iblk0_apply (c : Dev nD) (t : Fin cfg0.N) (r : Fin 2048) (d : Fin 8) (k : SRowsIn.Idx)
    (hk0 : (k 0).val = t.val * 2048 + r.val) (hk1 : (k 1).val = d.val) :
    (iblk m c 0 t : Vec Ideal S2048x8 .f32) (ix2 r d) = (V m c main_v0 : SRowsIn.Idx → EReal) k := by
  obtain ⟨e0, e1, -⟩ := idx_facts t
  unfold iblk
  rw [View.read_apply]
  show V m c main_v0 _ = V m c main_v0 k
  refine congrArg (V m c main_v0 : SRowsIn.Idx → EReal) ?_
  funext a
  apply Fin.ext
  match a with
  | ⟨0, _⟩ => show win0_0.index t 0 * 2048 + 1 * r.val = (k 0).val; rw [e0, hk0]; omega
  | ⟨1, _⟩ => show win0_0.index t 1 * 8 + 1 * d.val = (k 1).val; rw [e1, hk1]; omega

/-- The W window's one block is W. -/
theorem iblk1_apply (c : Dev nD) (t : Fin cfg0.N) (i : SPar.Idx) :
    (iblk m c 1 t : Vec Ideal S8x64 .f32) i = (V m c main_arg1 : SPar.Idx → EReal) i := by
  obtain ⟨-, -, e0, e1, -⟩ := idx_facts t
  unfold iblk
  rw [View.read_apply]
  show V m c main_arg1 _ = V m c main_arg1 i
  refine congrArg (V m c main_arg1 : SPar.Idx → EReal) ?_
  funext a
  apply Fin.ext
  match a with
  | ⟨0, _⟩ => show win0_1.index t 0 * 8 + 1 * (i 0).val = (i 0).val; rw [e0]; omega
  | ⟨1, _⟩ => show win0_1.index t 1 * 64 + 1 * (i 1).val = (i 1).val; rw [e1]; omega

/-- The b window's one block is b. -/
theorem iblk2_apply (c : Dev nD) (t : Fin cfg0.N) (i : SPar.Idx) :
    (iblk m c 2 t : Vec Ideal S8x64 .f32) i = (V m c main_arg2 : SPar.Idx → EReal) i := by
  obtain ⟨-, -, -, -, e0, e1, -⟩ := idx_facts t
  unfold iblk
  rw [View.read_apply]
  show V m c main_arg2 _ = V m c main_arg2 i
  refine congrArg (V m c main_arg2 : SPar.Idx → EReal) ?_
  funext a
  apply Fin.ext
  match a with
  | ⟨0, _⟩ => show win0_2.index t 0 * 8 + 1 * (i 0).val = (i 0).val; rw [e0]; omega
  | ⟨1, _⟩ => show win0_2.index t 1 * 64 + 1 * (i 1).val = (i 1).val; rw [e1]; omega

/-- What point t writes back is block t of the whole-array function of the arrays as the region finds them. -/
theorem flushed_eq (c : Dev nD) (t : Fin cfg0.N) :
    (dats m 0 c).flushed 3 t
      = ((cfg0.win 3).blk t).view.read (Elt Ideal) (rowsAt (V m c main_v0) (V m c main_arg1) (V m c main_arg2)) := by
  show (cfg0.win 3).cut (grid0.coords t) ((dats m 0 c).after 3 t) = _
  rw [after0_3]
  unfold out0_3
  rw [View.canon_unit_zero hz]
  simp only [View.ld_unit_zero (S := S2048x8) hz, View.ld_unit_zero (S := S8x64) hz]
  obtain ⟨-, -, -, -, -, -, e0, e1⟩ := idx_facts t
  funext y
  show k0_pay1 (F := Ideal) (iblk m c 0 t) (iblk m c 1 t) (iblk m c 2 t) y
      = rowsAt (V m c main_v0) (V m c main_arg1) (V m c main_arg2) (((cfg0.win 3).blk t).view.emb y)
  refine block_entry (iblk m c 0 t) (iblk m c 1 t) (iblk m c 2 t) _ _ _ t.val
    (fun r d k hk0 hk1 => iblk0_apply m c t r d k hk0 hk1) (iblk1_apply m c t) (iblk2_apply m c t) y _ ?_ ?_
  · show win0_3.index t 0 * 2048 + 1 * (y 0).val = t.val * 2048 + (y 0).val
    rw [e0]; omega
  · show win0_3.index t 1 * 512 + 1 * (y 1).val = (y 1).val
    rw [e1]; omega

/-- An index of the array is in point t's block iff each coordinate is in the block's range on its axis. -/
theorem mem_blk (t : Fin cfg0.N) (i : S131072x512.Idx) :
    i ∈ ((cfg0.win 3).blk t).view.set ↔ ∀ a : Fin 2, win0_3.index t a * S2048x512.size a ≤ (i a).val ∧ (i a).val < win0_3.index t a * S2048x512.size a + S2048x512.size a := by
  show i ∈ ((View.whole main_v1).slice (win0_3.rect t)).set ↔ _
  rw [View.set_slice_whole, Rect.mem_set_unit]
  exact Iff.rfl

/-- The 64 blocks tile the array: row i lies in the block of point i / 2048. -/
theorem cover (i : S131072x512.Idx) : ∃ t : Fin cfg0.N, (cfg0.win 3).flush t = true ∧ i ∈ ((cfg0.win 3).blk t).view.set := by
  have hi0 : (i 0).val < 131072 := (i 0).isLt
  have hi1 : (i 1).val < 512 := (i 1).isLt
  have hN : cfg0.N = 64 := N_0
  have ht : (i 0).val / 2048 < cfg0.N := by omega
  obtain ⟨-, -, -, -, -, -, e0, e1⟩ := idx_facts ⟨(i 0).val / 2048, ht⟩
  refine ⟨⟨(i 0).val / 2048, ht⟩, flush0_3 _, ?_⟩
  rw [mem_blk]
  intro a
  match a with
  | ⟨0, _⟩ =>
    show win0_3.index ⟨(i 0).val / 2048, ht⟩ 0 * 2048 ≤ (i 0).val ∧ (i 0).val < win0_3.index ⟨(i 0).val / 2048, ht⟩ 0 * 2048 + 2048
    rw [e0]; show (i 0).val / 2048 * 2048 ≤ (i 0).val ∧ (i 0).val < (i 0).val / 2048 * 2048 + 2048; omega
  | ⟨1, _⟩ =>
    show win0_3.index ⟨(i 0).val / 2048, ht⟩ 1 * 512 ≤ (i 1).val ∧ (i 1).val < win0_3.index ⟨(i 0).val / 2048, ht⟩ 1 * 512 + 512
    rw [e1]; omega

/-- The region's output array after the run. -/
theorem final (c : Dev nD) :
    (dats m 0 c).arrAt 3 cfg0.N = rowsAt (V m c main_v0) (V m c main_arg1) (V m c main_arg2) :=
  (dats m 0 c).arrAt_eq_of_cover 3 _ (fun t _ => flushed_eq m c t) cover

/-- The region finds the flattened input: the host reshape of the first argument. -/
theorem rowsIn_eq (c : Dev nD) :
    (V m c main_v0 : SRowsIn.Idx → EReal)
      = shapeCast S131072x8 (m ((c : Thread nD τ).loc main_arg0)) shapeCasts_S16x8192x8_S131072x8 := by
  show StableHlo.after hostOps0 (fun b => m (c, b)) (Proc.devRef .tc main_v0) = _
  after_results
  rfl

/-- The result buffer after the host reshape that follows the region: the output array, unflattened. -/
theorem result_eq (c : Dev nD) :
    Pipeline.afterTail₀ cfgs (dats m) 0 (V0 m) [hostOps1] c main_v2
      = shapeCast S16x8192x512 (rowsAt (V m c main_v0) (V m c main_arg1) (V m c main_arg2)) shapeCasts_S131072x512_S16x8192x512 := by
  unfold Pipeline.afterTail₀
  show StableHlo.after hostOps1 _ (Proc.devRef .tc main_v2) = _
  after_results
  rw [(Pipeline.withArrays_arr spec0 launch0.win.arr_inj c _ _ 3).trans (final m c)]
  rfl

/-- Unflattening the rows of the whole-array function of the flattened input gives the specification. -/
theorem flat_eq (X : SIn.Idx → EReal) (W B : SPar.Idx → EReal) :
    shapeCast S16x8192x512 (rowsAt (shapeCast S131072x8 X shapeCasts_S16x8192x8_S131072x8) W B) shapeCasts_S131072x512_S16x8192x512
      = outAt X W B := by
  funext i
  obtain ⟨p, l, j, rfl⟩ : ∃ (p : Fin 16) (l : Fin 8192) (j : Fin 512), i = ix3 p l j := ⟨i 0, i 1, i 2, eq_ix3 i⟩
  have hr : p.val * 8192 + l.val < 131072 := by have := p.isLt; have := l.isLt; omega
  rw [shapeCast_apply _ shapeCasts_S131072x512_S16x8192x512 (ix3 p l j) (ix2 (⟨p.val * 8192 + l.val, hr⟩ : Fin 131072) j)
      (by rw [Shape.rowMajor_val_two, Shape.rowMajor_val_three]; rfl),
    rowsAt_ix, outAt_ix,
    shapeCast_apply X shapeCasts_S16x8192x8_S131072x8 (ix2 (⟨p.val * 8192 + l.val, hr⟩ : Fin 131072) (feat j)) (ix3 p l (feat j))
      (by rw [Shape.rowMajor_val_two, Shape.rowMajor_val_three]; rfl)]

/-- Every weakly fair execution of the kernel program ends with the result buffer at the specification of the
    launch contents of the arguments, and the arguments as launched. -/
theorem run : θ_run defs (onTc (τ := τ) (main (F := Ideal))) ⟨m, fun _ => 0, ρ⟩ fun r => ∀ c : Dev nD,
      r.2.mem ((c.tc : Thread nD τ).loc main_v2)
        = outAt (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v2 (Pipeline.mem_restRefs_of main_v2 (by decide) (by decide))).trans
        ((result_eq m c).trans (by rw [rowsIn_eq, V_main_arg1, V_main_arg2]; exact flat_eq _ _ _)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.RegionValue

end
-- ==== Proof.RefTerm.lean ====
/-
  The reference's result as one pure term of its three argument arrays, stage by stage: the input cleaned
  (NaN to zero, the infinities to the largest finite values), the affine map `x[..., None] * W + b` over
  [16, 8192, 8, 64], channel 0 kept and the sine of channels 1 to 63 joined back, the last two axes
  flattened to 512.
-/
import proofs.«117917_j2765958939448_1_alg».proof.Proof.Gen.ReferenceIdeal

noncomputable section

namespace Cert.ReferenceIdeal.HostRun

open Cert.ReferenceIdeal Cert.ReferenceIdeal.Gen Idealize.ShloMosaic

variable {F : FTy → Type} [FloatOps F]

/-- A scalar word spread over the input's shape. -/
abbrev splat (w : BitVec 32) : FVec F S16x8192x8 .f32 :=
  broadcastInDim S16x8192x8 ![] bcast_S_S16x8192x8 (constant S_ .f32 w)

/-- NaN to zero, then +inf to the largest finite value, then -inf to its negative: three selects in a row. -/
def clampInf (x : FVec F S16x8192x8 .f32) : FVec F S16x8192x8 .f32 :=
  let z : FVec F S16x8192x8 .f32 := select (cmpf .une x x) (splat 0x00000000#32) x
  let p : FVec F S16x8192x8 .f32 := select (cmpf .oeq z (splat 0x7F800000#32)) (splat 0x7F7FFFFF#32) z
  select (cmpf .oeq p (splat 0xFF800000#32)) (splat 0xFF7FFFFF#32) p

/-- The affine map `x[..., None] * W + b` over [16, 8192, 8, 64], of an input already clamped. -/
def affine (x : FVec F S16x8192x8 .f32) (w b : FVec F S8x64 .f32) : FVec F S16x8192x8x64 .f32 :=
  addf
    (mulf
      (broadcastInDim S16x8192x8x64 ![0, 1, 2, 3] bcast_S16x8192x8x1_S16x8192x8x64_0_1_2_3
        (broadcastInDim S16x8192x8x1 ![0, 1, 2] bcast_S16x8192x8_S16x8192x8x1_0_1_2 x))
      (broadcastInDim S16x8192x8x64 ![0, 1, 2, 3] bcast_S1x1x8x64_S16x8192x8x64_0_1_2_3
        (broadcastInDim S1x1x8x64 ![2, 3] bcast_S8x64_S1x1x8x64_2_3 w)))
    (broadcastInDim S16x8192x8x64 ![0, 1, 2, 3] bcast_S1x1x8x64_S16x8192x8x64_0_1_2_3
      (broadcastInDim S1x1x8x64 ![2, 3] bcast_S8x64_S1x1x8x64_2_3 b))

/-- Channel 0 kept, the sine of channels 1 to 63, joined along the last axis. -/
def periodic (a : FVec F S16x8192x8x64 .f32) : FVec F S16x8192x8x64 .f32 :=
  concatenate S16x8192x8x64 3
    [⟨S16x8192x8x1, extractStridedSlice S16x8192x8x1 ![0, 0, 0, 0] a slices_S16x8192x8x64_S16x8192x8x1_0_0_0_0⟩,
     ⟨S16x8192x8x63, Host.sin (extractStridedSlice S16x8192x8x63 ![0, 0, 0, 1] a slices_S16x8192x8x64_S16x8192x8x63_0_0_0_1)⟩]
    concatenates_S16x8192x8x1_S16x8192x8x63_S16x8192x8x64_d3

/-- The reference's result as one term of its arguments. -/
def refTerm (x : FVec F S16x8192x8 .f32) (w b : FVec F S8x64 .f32) : FVec F S16x8192x512 .f32 :=
  shapeCast S16x8192x512 (periodic (affine (clampInf x) w b)) shapeCasts_S16x8192x8x64_S16x8192x512

end Cert.ReferenceIdeal.HostRun

end
-- ==== Proof.RefRun.lean ====
/-
  The reference program's run, read back as one pure term of its three argument arrays.

  The reference replaces a NaN by zero and the two infinities by the largest finite values of either sign
  (three compare-and-select stages, each select an outlined function of its own), forms
  `x[..., None] * W + b` over [16, 8192, 8, 64], keeps the first of the 64 channels as it is, applies
  the sine to the other 63, joins the two along the last axis and flattens the last two axes to 512
  (`refTerm`, stated stage by stage in its own module). Listed here are the thirty host operations this is, the outlined functions' operations at their call
  sites over the buffers each call names; the run of such a list ends with every buffer at the
  operations' fold over the launch contents, which at the result buffer is `refTerm` of the arguments.
-/
import proofs.«117917_j2765958939448_1_alg».proof.Proof.RefTerm
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- @main's thirty operations in order, the outlined functions' own at their call sites. -/
abbrev ops : List (HloOp τ sig (Elt F)) :=
  [ TRef.binary (.of main_arg0) (.of main_arg0) main_call0.v0 (cmpf .une),
    TRef.nullary main_call0.cst (constant S_ .f32 0x00000000#32),
    TRef.unary main_call0.cst main_call0.call0.v0 (broadcastInDim S16x8192x8 ![] bcast_S_S16x8192x8),
    TRef.ternary main_call0.v0 main_call0.call0.v0 (.of main_arg0) main_call0.call0.v1 select,
    TRef.nullary main_call0.cst_0 (constant S_ .f32 0x7F800000#32),
    TRef.unary main_call0.cst_0 main_call0.v2 (broadcastInDim S16x8192x8 ![] bcast_S_S16x8192x8),
    TRef.binary main_call0.call0.v1 main_call0.v2 main_call0.v3 (cmpf .oeq),
    TRef.nullary main_call0.cst_1 (constant S_ .f32 0x7F7FFFFF#32),
    TRef.unary main_call0.cst_1 main_call0.call1.v0 (broadcastInDim S16x8192x8 ![] bcast_S_S16x8192x8),
    TRef.ternary main_call0.v3 main_call0.call1.v0 main_call0.call0.v1 main_call0.call1.v1 select,
    TRef.nullary main_call0.cst_2 (constant S_ .f32 0xFF800000#32),
    TRef.unary main_call0.cst_2 main_call0.v5 (broadcastInDim S16x8192x8 ![] bcast_S_S16x8192x8),
    TRef.binary main_call0.call1.v1 main_call0.v5 main_call0.v6 (cmpf .oeq),
    TRef.nullary main_call0.cst_3 (constant S_ .f32 0xFF7FFFFF#32),
    TRef.unary main_call0.cst_3 main_call0.call2.v0 (broadcastInDim S16x8192x8 ![] bcast_S_S16x8192x8),
    TRef.ternary main_call0.v6 main_call0.call2.v0 main_call0.call1.v1 main_call0.call2.v1 select,
    unary main_v0 main_v1 (broadcastInDim S16x8192x8x1 ![0, 1, 2] bcast_S16x8192x8_S16x8192x8x1_0_1_2 : (⟨S16x8192x8, .f32⟩ : BufTy).Contents (Elt F) → (⟨S16x8192x8x1, .f32⟩ : BufTy).Contents (Elt F)),
    unary main_arg1 main_v2 (broadcastInDim S1x1x8x64 ![2, 3] bcast_S8x64_S1x1x8x64_2_3 : (⟨S8x64, .f32⟩ : BufTy).Contents (Elt F) → (⟨S1x1x8x64, .f32⟩ : BufTy).Contents (Elt F)),
    unary main_v1 main_v3 (broadcastInDim S16x8192x8x64 ![0, 1, 2, 3] bcast_S16x8192x8x1_S16x8192x8x64_0_1_2_3 : (⟨S16x8192x8x1, .f32⟩ : BufTy).Contents (Elt F) → (⟨S16x8192x8x64, .f32⟩ : BufTy).Contents (Elt F)),
    unary main_v2 main_v4 (broadcastInDim S16x8192x8x64 ![0, 1, 2, 3] bcast_S1x1x8x64_S16x8192x8x64_0_1_2_3 : (⟨S1x1x8x64, .f32⟩ : BufTy).Contents (Elt F) → (⟨S16x8192x8x64, .f32⟩ : BufTy).Contents (Elt F)),
    binary main_v3 main_v4 main_v5 (mulf : (⟨S16x8192x8x64, .f32⟩ : BufTy).Contents (Elt F) → (⟨S16x8192x8x64, .f32⟩ : BufTy).Contents (Elt F) → (⟨S16x8192x8x64, .f32⟩ : BufTy).Contents (Elt F)),
    unary main_arg2 main_v6 (broadcastInDim S1x1x8x64 ![2, 3] bcast_S8x64_S1x1x8x64_2_3 : (⟨S8x64, .f32⟩ : BufTy).Contents (Elt F) → (⟨S1x1x8x64, .f32⟩ : BufTy).Contents (Elt F)),
    unary main_v6 main_v7 (broadcastInDim S16x8192x8x64 ![0, 1, 2, 3] bcast_S1x1x8x64_S16x8192x8x64_0_1_2_3 : (⟨S1x1x8x64, .f32⟩ : BufTy).Contents (Elt F) → (⟨S16x8192x8x64, .f32⟩ : BufTy).Contents (Elt F)),
    binary main_v5 main_v7 main_v8 (addf : (⟨S16x8192x8x64, .f32⟩ : BufTy).Contents (Elt F) → (⟨S16x8192x8x64, .f32⟩ : BufTy).Contents (Elt F) → (⟨S16x8192x8x64, .f32⟩ : BufTy).Contents (Elt F)),
    unary main_v8 main_v9 ((extractStridedSlice S16x8192x8x1 ![0, 0, 0, 0] · slices_S16x8192x8x64_S16x8192x8x1_0_0_0_0) : (⟨S16x8192x8x64, .f32⟩ : BufTy).Contents (Elt F) → (⟨S16x8192x8x1, .f32⟩ : BufTy).Contents (Elt F)),
    unary main_v8 main_v10 ((extractStridedSlice S16x8192x8x63 ![0, 0, 0, 1] · slices_S16x8192x8x64_S16x8192x8x63_0_0_0_1) : (⟨S16x8192x8x64, .f32⟩ : BufTy).Contents (Elt F) → (⟨S16x8192x8x63, .f32⟩ : BufTy).Contents (Elt F)),
    unary main_v10 main_v11 (Host.sin : (⟨S16x8192x8x63, .f32⟩ : BufTy).Contents (Elt F) → (⟨S16x8192x8x63, .f32⟩ : BufTy).Contents (Elt F)),
    binary main_v9 main_v11 main_v12 ((fun a b => concatenate S16x8192x8x64 3 [⟨S16x8192x8x1, a⟩, ⟨S16x8192x8x63, b⟩] concatenates_S16x8192x8x1_S16x8192x8x63_S16x8192x8x64_d3) : (⟨S16x8192x8x1, .f32⟩ : BufTy).Contents (Elt F) → (⟨S16x8192x8x63, .f32⟩ : BufTy).Contents (Elt F) → (⟨S16x8192x8x64, .f32⟩ : BufTy).Contents (Elt F)),
    reshape main_v12 main_v13 rfl shapeCasts_S16x8192x8x64_S16x8192x512 ]

set_option maxRecDepth 1024 in
/-- @main is that straight line: the outlined functions unfolded at their calls and the sequencing reassociated. -/
theorem main_eq (c : Dev nD) : main (F := F) c = seq ops := by
  simp only [main, fn_nan_to_num.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., unary_bufs_sub .., ternary_bufs_sub ..,
   nullary_bufs_sub .., unary_bufs_sub .., binary_bufs_sub .., nullary_bufs_sub .., unary_bufs_sub .., ternary_bufs_sub ..,
   nullary_bufs_sub .., unary_bufs_sub .., binary_bufs_sub .., nullary_bufs_sub .., unary_bufs_sub .., ternary_bufs_sub ..,
   unary_bufs_sub .., unary_bufs_sub .., unary_bufs_sub .., unary_bufs_sub .., binary_bufs_sub ..,
   unary_bufs_sub .., unary_bufs_sub .., binary_bufs_sub .., unary_bufs_sub .., unary_bufs_sub .., unary_bufs_sub ..,
   binary_bufs_sub .., reshape_bufs_sub ..⟩

set_option maxHeartbeats 4000000 in
/-- The fold at the result buffer is `refTerm` of the contents at the three argument buffers: each operation's
    result read where it is written and passed over elsewhere. -/
theorem out_eq (V : Valuation τ sig (Elt F)) :
    after ops V (main_v13 : DevRef τ sig)
      = refTerm (V (main_arg0 : DevRef τ sig)) (V (main_arg1 : DevRef τ sig)) (V (main_arg2 : DevRef τ sig)) := by
  unfold refTerm periodic affine clampInf
  after_results
  try rfl

theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results
theorem arg2_eq (V : Valuation τ sig (Elt F)) : after ops V (main_arg2 : DevRef τ sig) = V (main_arg2 : DevRef τ sig) := by
  after_results

/-- Every weakly fair execution of the reference terminates with the result buffer at `refTerm` of the
    launch contents of the arguments, and the arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v13)
        = refTerm (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v13).trans (out_eq _), (h c main_arg0).trans (arg0_eq _),
      (h c main_arg1).trans (arg1_eq _), (h c main_arg2).trans (arg2_eq _)⟩)
    (run_seq scopedRefs_eq scopedSems_eq defs main (fun _ => ops) main_eq (fun _ => ops_sub) m ρ)

end Cert.ReferenceIdeal.HostRun

end
-- ==== Proof.RefValue.lean ====
/-
  The reference's term, read at one entry of the result, is the specification.

  Row-major, entry (p, l, j) of the flattened result is entry (p, l, j / 64, j % 64) of the joined
  [16, 8192, 8, 64] value; the join reads its first piece in channel 0 and its second, one channel down,
  elsewhere; either is the affine value at (p, l, j / 64, j % 64); and the two-step broadcasts of the cleaned input,
  of W and of b read `clamp x[p, l, j / 64]`, `W[j / 64, j % 64]` and `b[j / 64, j % 64]` there. The host's sine and
  the host's "unordered or different" test are, over the extended reals, the sine and the test the specification
  names.
-/
import proofs.«117917_j2765958939448_1_alg».proof.Proof.RefTerm
import proofs.«117917_j2765958939448_1_alg».proof.Proof.Spec
import Idealize.ShloMosaic.Lib.Pipeline.Value
import Idealize.ShloMosaic.Lib.ValueIdx

noncomputable section

namespace Cert.ReferenceIdeal.HostValue

open Cert.ReferenceIdeal Cert.ReferenceIdeal.Gen Cert.ReferenceIdeal.HostRun Idealize.ShloMosaic Idealize.ShloMosaic.ValueIdx Cert.Spec

variable (x : FVec Ideal S16x8192x8 .f32) (w b : FVec Ideal S8x64 .f32)

/-- An entry of the cleaned input is the clamp of the same entry of the input. -/
theorem clampInf_apply (p : Fin 16) (l : Fin 8192) (d : Fin 8) :
    clampInf (F := Ideal) x (ix3 p l d) = clamp (x (ix3 p l d)) := rfl

/-- An entry of the affine value. -/
theorem affine_apply (xc : FVec Ideal S16x8192x8 .f32) (p : Fin 16) (l : Fin 8192) (d : Fin 8) (e : Fin 64) :
    affine (F := Ideal) xc w b (ix4 p l d e) = xc (ix3 p l d) * w (ix2 d e) + b (ix2 d e) := by
  unfold affine
  rw [addf_apply, mulf_apply]
  rw [broadcastInDim_apply (s := S16x8192x8x1) (t := S16x8192x8x64) ![0, 1, 2, 3] bcast_S16x8192x8x1_S16x8192x8x64_0_1_2_3 _ (ix4 p l d e) (ix4 p l d (0 : Fin 1))
        (fun a => match a with | ⟨0, _⟩ => rfl | ⟨1, _⟩ => rfl | ⟨2, _⟩ => rfl | ⟨3, _⟩ => rfl),
      broadcastInDim_apply (s := S16x8192x8) (t := S16x8192x8x1) ![0, 1, 2] bcast_S16x8192x8_S16x8192x8x1_0_1_2 xc (ix4 p l d (0 : Fin 1)) (ix3 p l d)
        (fun a => match a with | ⟨0, _⟩ => rfl | ⟨1, _⟩ => rfl | ⟨2, _⟩ => rfl)]
  rw [broadcastInDim_apply (s := S1x1x8x64) (t := S16x8192x8x64) ![0, 1, 2, 3] bcast_S1x1x8x64_S16x8192x8x64_0_1_2_3
        (broadcastInDim S1x1x8x64 ![2, 3] bcast_S8x64_S1x1x8x64_2_3 w) (ix4 p l d e) (ix4 (0 : Fin 1) (0 : Fin 1) d e)
        (fun a => match a with | ⟨0, _⟩ => rfl | ⟨1, _⟩ => rfl | ⟨2, _⟩ => rfl | ⟨3, _⟩ => rfl),
      broadcastInDim_apply (s := S8x64) (t := S1x1x8x64) ![2, 3] bcast_S8x64_S1x1x8x64_2_3 w (ix4 (0 : Fin 1) (0 : Fin 1) d e) (ix2 d e)
        (fun a => match a with | ⟨0, _⟩ => rfl | ⟨1, _⟩ => rfl)]
  rw [broadcastInDim_apply (s := S1x1x8x64) (t := S16x8192x8x64) ![0, 1, 2, 3] bcast_S1x1x8x64_S16x8192x8x64_0_1_2_3
        (broadcastInDim S1x1x8x64 ![2, 3] bcast_S8x64_S1x1x8x64_2_3 b) (ix4 p l d e) (ix4 (0 : Fin 1) (0 : Fin 1) d e)
        (fun a => match a with | ⟨0, _⟩ => rfl | ⟨1, _⟩ => rfl | ⟨2, _⟩ => rfl | ⟨3, _⟩ => rfl),
      broadcastInDim_apply (s := S8x64) (t := S1x1x8x64) ![2, 3] bcast_S8x64_S1x1x8x64_2_3 b (ix4 (0 : Fin 1) (0 : Fin 1) d e) (ix2 d e)
        (fun a => match a with | ⟨0, _⟩ => rfl | ⟨1, _⟩ => rfl)]

/-- An entry of the joined value: the operand in channel 0, its sine elsewhere. -/
theorem periodic_apply (a : FVec Ideal S16x8192x8x64 .f32) (p : Fin 16) (l : Fin 8192) (d : Fin 8) (e : Fin 64) :
    periodic (F := Ideal) a (ix4 p l d e) = if e.val = 0 then a (ix4 p l d e) else Ideal.sin (a (ix4 p l d e)) := by
  unfold periodic
  by_cases he : e.val = 0
  · rw [if_pos he]
    refine (concatenate_pair_apply_left (t := S16x8192x8x64) (s₁ := S16x8192x8x1) (s₂ := S16x8192x8x63) (3 : Fin 4) _ _
      concatenates_S16x8192x8x1_S16x8192x8x63_S16x8192x8x64_d3 (ix4 p l d e) rfl
      (ix4 p l d (0 : Fin 1)) (fun c => match c with | ⟨0, _⟩ => rfl | ⟨1, _⟩ => rfl | ⟨2, _⟩ => rfl | ⟨3, _⟩ => he.symm)).trans ?_
    exact extractStridedSlice_apply _ _ slices_S16x8192x8x64_S16x8192x8x1_0_0_0_0 (ix4 p l d (0 : Fin 1)) (ix4 p l d e)
      (fun c => match c with
        | ⟨0, _⟩ => (Nat.zero_add _).symm
        | ⟨1, _⟩ => (Nat.zero_add _).symm
        | ⟨2, _⟩ => (Nat.zero_add _).symm
        | ⟨3, _⟩ => by show e.val = 0 + 0; omega)
  · rw [if_neg he]
    have he1 : e.val - 1 < 63 := by have := e.isLt; omega
    refine (concatenate_pair_apply_right (t := S16x8192x8x64) (s₁ := S16x8192x8x1) (s₂ := S16x8192x8x63) (3 : Fin 4) _ _
      concatenates_S16x8192x8x1_S16x8192x8x63_S16x8192x8x64_d3 (ix4 p l d e) rfl rfl
      (ix4 p l d (⟨e.val - 1, he1⟩ : Fin 63))
      (fun c => match c with
        | ⟨0, _⟩ => fun _ => rfl
        | ⟨1, _⟩ => fun _ => rfl
        | ⟨2, _⟩ => fun _ => rfl
        | ⟨3, _⟩ => fun h => absurd rfl h)
      (by show (e.val - 1) + 1 = e.val; omega)).trans ?_
    show FloatOps.hostUnary .sin (extractStridedSlice S16x8192x8x63 ![0, 0, 0, 1] a slices_S16x8192x8x64_S16x8192x8x63_0_0_0_1 (ix4 p l d (⟨e.val - 1, he1⟩ : Fin 63))) = _
    rw [extractStridedSlice_apply _ _ slices_S16x8192x8x64_S16x8192x8x63_0_0_0_1 (ix4 p l d (⟨e.val - 1, he1⟩ : Fin 63)) (ix4 p l d e)
      (fun c => match c with
        | ⟨0, _⟩ => (Nat.zero_add _).symm
        | ⟨1, _⟩ => (Nat.zero_add _).symm
        | ⟨2, _⟩ => (Nat.zero_add _).symm
        | ⟨3, _⟩ => by show e.val = 1 + (e.val - 1); omega)]
    rfl

/-- The reference's term is the specification, entry by entry. -/
theorem refTerm_eq : refTerm (F := Ideal) x w b = outAt x w b := by
  funext i
  obtain ⟨p, l, j, rfl⟩ : ∃ (p : Fin 16) (l : Fin 8192) (j : Fin 512), i = ix3 p l j := ⟨i 0, i 1, i 2, eq_ix3 i⟩
  rw [outAt_ix]
  unfold refTerm
  refine (shapeCast_apply _ shapeCasts_S16x8192x8x64_S16x8192x512 (ix3 p l j) (ix4 p l (feat j) (chan j)) ?_).trans ?_
  · rw [Shape.rowMajor_val_three, Shape.rowMajor_val_four]
    show ((p.val * 8192 + l.val) * 8 + j.val / 64) * 64 + j.val % 64 = (p.val * 8192 + l.val) * 512 + j.val
    omega
  · rw [periodic_apply, affine_apply, clampInf_apply]
    rfl

end Cert.ReferenceIdeal.HostValue

end
-- ==== Proof.lean ====
/-
  The kernel and its reference compute one function of (x, W, b), entry by entry over the extended reals.

  Both clean x (a NaN would become zero, +inf the largest finite single-precision value, -inf its negative: the same
  four words on both sides), form `a = clamp x[p, l, d] * W[d, e] + b[d, e]` with the operands in the same order,
  and put `a` itself in channel e = 0 and `sin a` in channels 1 to 63 of the result at [p, l, 64 d + e]. No law of
  arithmetic is used beyond reading each side at an entry, so the precondition is never opened. The kernel walks
  the input, flattened to 131072 rows, in 64 blocks of 2048 rows and unflattens the result; the reference works on
  the [16, 8192, 8, 64] value whole. The three frames: the kernel's two are the generated frame certificates, the
  reference's is its run with the result dropped. The idealization rewrote nothing, so there is nothing to preserve.
-/
import proofs.«117917_j2765958939448_1_alg».proof.Defs
import proofs.«117917_j2765958939448_1_alg».proof.Proof.Gen.Kernel
import proofs.«117917_j2765958939448_1_alg».proof.Proof.Gen.Kernel.Skeleton
import proofs.«117917_j2765958939448_1_alg».proof.Proof.Gen.Kernel.Launch
import proofs.«117917_j2765958939448_1_alg».proof.Proof.Gen.Kernel.Points
import proofs.«117917_j2765958939448_1_alg».proof.Proof.Gen.Kernel.Frame
import proofs.«117917_j2765958939448_1_alg».proof.Proof.Gen.KernelIdeal
import proofs.«117917_j2765958939448_1_alg».proof.Proof.Gen.KernelIdeal.Skeleton
import proofs.«117917_j2765958939448_1_alg».proof.Proof.Gen.KernelIdeal.Launch
import proofs.«117917_j2765958939448_1_alg».proof.Proof.Gen.KernelIdeal.Points
import proofs.«117917_j2765958939448_1_alg».proof.Proof.Gen.KernelIdeal.Frame
import proofs.«117917_j2765958939448_1_alg».proof.Proof.Gen.ReferenceIdeal
import proofs.«117917_j2765958939448_1_alg».proof.Proof.Gen.Pre_finite_inputs
import proofs.«117917_j2765958939448_1_alg».proof.Proof.Spec
import proofs.«117917_j2765958939448_1_alg».proof.Proof.KernelValue
import proofs.«117917_j2765958939448_1_alg».proof.Proof.RefRun
import proofs.«117917_j2765958939448_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.HostRun.run (F := Ideal) m ρ)

/-- Both runs end at the specification of arguments that agree. -/
theorem algebraic : Cert.algebraic_KernelIdeal_ReferenceIdeal := by
  intro m ρ m' ρ' _ hagree
  refine ⟨fun c => Cert.Spec.outAt (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.RegionValue.run m ρ, ?_⟩
  refine (θ_run Cert.ReferenceIdeal.defs _ _).mono (fun _ h c => ⟨(h c).1.trans ?_, (h c).2⟩)
    (Cert.ReferenceIdeal.HostRun.run (F := Ideal) m' ρ')
  rw [Cert.ReferenceIdeal.HostValue.refTerm_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
